-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S4096x4096 : Shape := ⟨2, ![4096, 4096]⟩
abbrev S65536 : Shape := ⟨1, ![65536]⟩
abbrev S4096x32 : Shape := ⟨2, ![4096, 32]⟩
abbrev S32 : Shape := ⟨1, ![32]⟩
abbrev S32x4096 : Shape := ⟨2, ![32, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S65536 : S_.BroadcastsInDim S65536 (![] : Fin 0 → Fin S65536.rank)
  reducesTo_S65536_S_d0 : S65536.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg7 : FVec F S32 .f32) (main_arg8 : FVec F S32x4096 .f32) (main_arg9 : FVec F S4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x4096 .f32 := Host.absf main_arg8
  let main_cst_8 : FVec F S_ .f32 := constant S_ .f32 0x7F800000#32
  let main_v25 : FVec F S32x4096 .f32 := broadcastInDim S32x4096 ![] bcast_S_S32x4096 main_cst_8
  let main_v26 : IVec S32x4096 1 := cmpf .olt main_v24 main_v25
  let main_c_9 : IVec S_ 1 := constantI S_ 1 1#1
  let main_v27 : IVec S_ 1 := (fun x v => Host.reduce IntOp.andi x v reducesTo_S32x4096_S_d0_1 h_S_) main_v26 main_c_9
  let main_v28 : IVec S_ 1 := andi main_v23 main_v27
  let main_v29 : FVec F S4096 .f32 := Host.absf main_arg9
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S256 .f32) (main_arg2 : IVec S4096x4096 32) (main_arg3 : IVec S65536 32) (main_arg4 : IVec S65536 32) (main_arg5 : FVec F S65536 .f32) (main_arg6 : FVec F S4096x32 .f32) (main_arg7 : FVec F S32 .f32) (main_arg8 : FVec F S32x4096 .f32) (main_arg9 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S65536 .f32 := Host.absf main_arg5
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S4096x32 .f32 := Host.absf main_arg6
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg7 main_arg8 main_arg9 main_v13 main_v16
-- ==== Kernel.lean ====
abbrev S4x2048x4096 : Shape := ⟨3, ![4, 2048, 4096]⟩
abbrev S256 : Shape := ⟨1, ![256]⟩
abbrev S4096x4096 : Shape := ⟨2, ![4096, 4096]⟩
abbrev S65536 : Shape := ⟨1, ![65536]⟩
abbrev S4096x32 : Shape := ⟨2, ![4096, 32]⟩
abbrev S32 : Shape := ⟨1, ![32]⟩
abbrev S32x4096 : Shape := ⟨2, ![32, 4096]⟩
abbrev S4096 : Shape := ⟨1, ![4096]⟩
abbrev S_ : Shape := ⟨0, ![]⟩
abbrev S4096x4096x1 : Shape := ⟨3, ![4096, 4096, 1]⟩
abbrev S65536x1 : Shape := ⟨2, ![65536, 1]⟩
abbrev S65536x2 : Shape := ⟨2, ![65536, 2]⟩
abbrev S1x32 : Shape := ⟨2, ![1, 32]⟩
abbrev S8192x4096 : Shape := ⟨2, ![8192, 4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 49
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S65536, .i32⟩
  | .hbm, ⟨4, _⟩ => ⟨S65536, .i32⟩
  | .hbm, ⟨5, _⟩ => ⟨S65536, .f32⟩
  | .hbm, ⟨6, _⟩ => ⟨S4096x32, .f32⟩
  | .hbm, ⟨7, _⟩ => ⟨S32, .f32⟩
  | .hbm, ⟨8, _⟩ => ⟨S32x4096, .f32⟩
  | .hbm, ⟨9, _⟩ => ⟨S4096, .f32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096x1, .i32⟩
  | .hbm, ⟨18, _⟩ => ⟨S4096x4096, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S65536x1, .i32⟩
  | .hbm, ⟨35, _⟩ => ⟨S65536x2, .i32⟩
  | .hbm, ⟨36, _⟩ => ⟨S4096x4096, .f32⟩
  | .hbm, ⟨37, _⟩ => ⟨S1x32, .f32⟩
  | .hbm, ⟨38, _⟩ => ⟨S4096x32, .f32⟩
  | .hbm, ⟨39, _⟩ => ⟨S4096x32, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .bf16⟩
  | .hbm, ⟨44, _⟩ => ⟨S8192x4096, .f32⟩
  | .hbm, ⟨45, _⟩ => ⟨S8192x4096, .bf16⟩
  | .hbm, ⟨46, _⟩ => ⟨S1x4096, .f32⟩
  | .hbm, ⟨47, _⟩ => ⟨S8192x4096, .f32⟩
  | .hbm, ⟨48, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  scatter_S4096x4096_S65536x2_S65536_n_01_01_1_wf : ScatterDims.WF S4096x4096 S65536x2 S65536 [] [0, 1] [0, 1] 1
  dot_S4096x32_S32x4096_S4096x4096_1_0_0_1_n_n_wf : DotDims.WF S4096x32 S32x4096 S4096x4096 [1] [0] [0] [1] [] []
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v29) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S256 : Shape := ⟨1, ![256]⟩
abbrev S4096x4096 : Shape := ⟨2, ![4096, 4096]⟩
abbrev S65536 : Shape := ⟨1, ![65536]⟩
abbrev S4096x32 : Shape := ⟨2, ![4096, 32]⟩
abbrev S32 : Shape := ⟨1, ![32]⟩
abbrev S32x4096 : Shape := ⟨2, ![32, 4096]⟩
abbrev S4096 : Shape := ⟨1, ![4096]⟩
abbrev S_ : Shape := ⟨0, ![]⟩
abbrev S4096x4096x1 : Shape := ⟨3, ![4096, 4096, 1]⟩
abbrev S65536x1 : Shape := ⟨2, ![65536, 1]⟩
abbrev S65536x2 : Shape := ⟨2, ![65536, 2]⟩
abbrev S1x32 : Shape := ⟨2, ![1, 32]⟩
abbrev S1x1x4096 : Shape := ⟨3, ![1, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S65536, .i32⟩
  | .hbm, ⟨4, _⟩ => ⟨S65536, .i32⟩
  | .hbm, ⟨5, _⟩ => ⟨S65536, .f32⟩
  | .hbm, ⟨6, _⟩ => ⟨S4096x32, .f32⟩
  | .hbm, ⟨7, _⟩ => ⟨S32, .f32⟩
  | .hbm, ⟨8, _⟩ => ⟨S32x4096, .f32⟩
  | .hbm, ⟨9, _⟩ => ⟨S4096, .f32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096x1, .i32⟩
  | .hbm, ⟨18, _⟩ => ⟨S4096x4096, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S65536x1, .i32⟩
  | .hbm, ⟨35, _⟩ => ⟨S65536x2, .i32⟩
  | .hbm, ⟨36, _⟩ => ⟨S4096x4096, .f32⟩
  | .hbm, ⟨37, _⟩ => ⟨S1x32, .f32⟩
  | .hbm, ⟨38, _⟩ => ⟨S4096x32, .f32⟩
  | .hbm, ⟨39, _⟩ => ⟨S4096x32, .f32⟩
  | .hbm, ⟨40, _⟩ => ⟨S4096x4096, .f32⟩
  | .hbm, ⟨41, _⟩ => ⟨S4096x4096, .f32⟩
  | .hbm, ⟨42, _⟩ => ⟨S4x2048x4096, .f32⟩
  | .hbm, ⟨43, _⟩ => ⟨S1x1x4096, .f32⟩
  | .hbm, ⟨44, _⟩ => ⟨S4x2048x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S4096x4096x1_S4096x4096_n_0_n_n_0_2_1_wf : GatherDims.WF S256 S4096x4096x1 S4096x4096 [] [0] [] [0] [] 2 ![1]
  scatter_S4096x4096_S65536x2_S65536_n_01_01_1_wf : ScatterDims.WF S4096x4096 S65536x2 S65536 [] [0, 1] [0, 1] 1
  dot_S4096x32_S32x4096_S4096x4096_1_0_0_1_n_n_wf : DotDims.WF S4096x32 S32x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Payload.lean ====
/-
  The value the kernel body stores, read entry by entry at the extended reals.

  One grid point holds a 1024×4096 tile `a` of the (row-flattened) activations, a 4096×512 tile `w` of the transposed
  weight matrix and a 1×512 tile `b` of the bias row. The body stores, at position (p, q) of its 1024×512 output tile,

      (Σ k < 4096, a[p, k] · w[k, q]) + b[0, q] :

  the matrix unit's product accumulated into a zero tile is the plain sum over the contracted index (0 + s = s holds at
  the infinities too), the bias row is broadcast down the 1024 rows, and the three identity shape casts drop out.
-/
import proofs.«179939_j32615981646541_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The operand indices of the tile product

For the product [1024, 4096] × [4096, 512] → [1024, 512] (left axis 1 contracted with right axis 0), output position
`j` and contraction position `q` read the left operand at (j 0, q) and the right operand at (q, j 1). -/

/-- The left operand's row is the output's row. -/
theorem lhs_row (j : S1024x512.Idx) (q : dot_S1024x4096_S4096x512_S1024x512_1_0_0_1_n_n.contr.Idx) :
    (dot_S1024x4096_S4096x512_S1024x512_1_0_0_1_n_n.lhsIdx j q 0).val = (j 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
/-- The left operand's column is the contraction position. -/
theorem lhs_contr (j : S1024x512.Idx) (q : dot_S1024x4096_S4096x512_S1024x512_1_0_0_1_n_n.contr.Idx) :
    (dot_S1024x4096_S4096x512_S1024x512_1_0_0_1_n_n.lhsIdx j q 1).val = (q ⟨0, by decide⟩).val :=
  dot_S1024x4096_S4096x512_S1024x512_1_0_0_1_n_n.lhsIdx_val_of_single rfl j q
/-- The right operand's row is the contraction position. -/
theorem rhs_contr (j : S1024x512.Idx) (q : dot_S1024x4096_S4096x512_S1024x512_1_0_0_1_n_n.contr.Idx) :
    (dot_S1024x4096_S4096x512_S1024x512_1_0_0_1_n_n.rhsIdx j q 0).val = (q ⟨0, by decide⟩).val :=
  dot_S1024x4096_S4096x512_S1024x512_1_0_0_1_n_n.rhsIdx_val_of_single rfl j q
/-- The right operand's column is the output's column. -/
theorem rhs_col (j : S1024x512.Idx) (q : dot_S1024x4096_S4096x512_S1024x512_1_0_0_1_n_n.contr.Idx) :
    (dot_S1024x4096_S4096x512_S1024x512_1_0_0_1_n_n.rhsIdx j q 1).val = (j 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-! ## The three operations of the body, each at a position -/

/-- The tile product into a zero accumulator, at (p, q): the sum over k of a[p, k] · w[k, q]. -/
theorem tile_product (a : FVec Ideal S1024x4096 .bf16) (w : FVec Ideal S4096x512 .bf16) (p : Fin 1024) (q : Fin 512) :
    matmul dot_S1024x4096_S4096x512_S1024x512_1_0_0_1_n_n none a w (constant (F := Ideal) S1024x512 .f32 0x00000000#32) (ix2 p q)
      = ∑ k : Fin 4096, a (ix2 p k) * w (ix2 k q) := by
  refine (Ideal.matmul_constant_zero_apply dot_S1024x4096_S4096x512_S1024x512_1_0_0_1_n_n none a w (ix2 p q)).trans ?_
  rw [← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 p q) ((contrEquiv1 dot_S1024x4096_S4096x512_S1024x512_1_0_0_1_n_n 4096 rfl rfl).symm k) = ix2 p k := funext fun i => Fin.ext (by
    match i with
    | ⟨0, _⟩ => exact lhs_row _ _
    | ⟨1, _⟩ => exact (lhs_contr _ _).trans hk)
  have er : dot_S1024x4096_S4096x512_S1024x512_1_0_0_1_n_n.rhsIdx (ix2 p q) ((contrEquiv1 dot_S1024x4096_S4096x512_S1024x512_1_0_0_1_n_n 4096 rfl rfl).symm k) = ix2 k q := funext fun i => Fin.ext (by
    match i with
    | ⟨0, _⟩ => exact (rhs_contr _ _).trans hk
    | ⟨1, _⟩ => exact rhs_col _ _)
  rw [el, er]

/-- The bias row broadcast down the rows, at (p, q): the row's entry q. -/
theorem bias_down_rows (b : FVec Ideal S1x512 .f32) (p : Fin 1024) (q : Fin 512) :
    broadcastTo S1024x512 b broadcasts_S1x512_S1024x512 (ix2 p q) = b (ix2 0 q) :=
  broadcastTo_apply b broadcasts_S1x512_S1024x512 (ix2 p q) (ix2 0 q) (fun i => match i with
    | ⟨0, _⟩ => by show (0 : Nat) = if (1 : Nat) = 1 then 0 else p.val; rw [if_pos rfl]
    | ⟨1, _⟩ => by show q.val = if (512 : Nat) = 1 then 0 else q.val; rw [if_neg (by decide)])

/-- THE STORED VALUE at (p, q): the product's sum plus the bias entry. -/
theorem stored_apply (a : FVec Ideal S1024x4096 .bf16) (w : FVec Ideal S4096x512 .bf16) (b : FVec Ideal S1x512 .f32)
    (p : Fin 1024) (q : Fin 512) :
    k0_pay1 (F := Ideal) a w b (ix2 p q) = (∑ k : Fin 4096, a (ix2 p k) * w (ix2 k q)) + b (ix2 0 q) := by
  unfold k0_pay1
  rw [shapeCast_self, shapeCast_self, shapeCast_self, addf_apply, tile_product, bias_down_rows]

end Cert.KernelIdeal.Body

end
-- ==== Proof.Rows.lean ====
/-
  One output tile against the whole output.

  `rows X Wt B [r, o] = (Σ k < 4096, X[r, k] · Wt[k, o]) + B[0, o]` is the whole [8192, 4096] output as a function of the
  flattened activations X, the transposed weights Wt and the bias row B. If a 1024×4096 tile `a` is X's rows from
  1024 i₀ on, a 4096×512 tile `w` is Wt's columns from 512 j₀ on, and a 1×512 tile `b` is B's columns from 512 j₀ on,
  then what the body stores at tile position y is `rows X Wt B` at the array position 1024 i₀ + y₀, 512 j₀ + y₁: the
  contraction runs over the whole axis k on both sides, so the sums agree term by term.
-/
import proofs.«179939_j32615981646541_1_alg».proof.Proof.Payload

noncomputable section

namespace Cert.KernelIdeal.Blocks

open Cert.KernelIdeal Cert.KernelIdeal.Gen Idealize.ShloMosaic Idealize.ShloMosaic.ValueIdx

/-- The whole output as a function of the three staged arrays: every row of X against every column of Wt, plus the
    bias entry of that column. -/
def rows (X : FVec Ideal S8192x4096 .bf16) (Wt : FVec Ideal S4096x4096 .bf16) (B : FVec Ideal S1x4096 .f32) :
    FVec Ideal S8192x4096 .f32 :=
  fun j => (∑ k : Fin 4096, X (ix2 (j 0) k) * Wt (ix2 k (j 1))) + B (ix2 0 (j 1))

/-- The stored tile is a tile of `rows`: tiles that are the arrays read at the offsets (1024 i₀, ·), (·, 512 j₀),
    (0, 512 j₀) store, at tile position `y`, the value of `rows` at the array position `z` = (1024 i₀ + y₀, 512 j₀ + y₁). -/
theorem stored_eq_rows (X : FVec Ideal S8192x4096 .bf16) (Wt : FVec Ideal S4096x4096 .bf16) (B : FVec Ideal S1x4096 .f32)
    (a : FVec Ideal S1024x4096 .bf16) (w : FVec Ideal S4096x512 .bf16) (b : FVec Ideal S1x512 .f32)
    (i₀ j₀ : Nat) (y : S1024x512.Idx) (z : S8192x4096.Idx)
    (hz0 : (z 0).val = i₀ * 1024 + (y 0).val) (hz1 : (z 1).val = j₀ * 512 + (y 1).val)
    (ha : ∀ (u : S1024x4096.Idx) (v : S8192x4096.Idx), (v 0).val = i₀ * 1024 + (u 0).val → (v 1).val = (u 1).val → a u = X v)
    (hw : ∀ (u : S4096x512.Idx) (v : S4096x4096.Idx), (v 0).val = (u 0).val → (v 1).val = j₀ * 512 + (u 1).val → w u = Wt v)
    (hb : ∀ (u : S1x512.Idx) (v : S1x4096.Idx), (v 1).val = j₀ * 512 + (u 1).val → b u = B v) :
    k0_pay1 (F := Ideal) a w b y = rows X Wt B z := by
  obtain ⟨p, q, rfl⟩ : ∃ (p : Fin 1024) (q : Fin 512), y = ix2 p q := ⟨y 0, y 1, eq_ix2 y⟩
  rw [Body.stored_apply]
  unfold rows
  rw [hb (ix2 0 q) (ix2 0 (z 1)) hz1]
  exact congrArg (· + _) (Finset.sum_congr rfl fun k _ => by
    rw [ha (ix2 p k) (ix2 (z 0) k) hz0 rfl, hw (ix2 k q) (ix2 k (z 1)) rfl hz1])

end Cert.KernelIdeal.Blocks

end
-- ==== Proof.Blocks.lean ====
/-
  From the output tiles to the whole output array.

  The grid is 8 × 8. Point (i, j) stages rows [1024 i, 1024 i + 1024) of the flattened activations X (all 4096
  columns), columns [512 j, 512 j + 512) of the transposed weights Wt (all 4096 rows) and of the bias row B, and writes
  back tile (i, j) of the [8192, 4096] output. By `stored_eq_rows` the tile it writes is the restriction to that tile of
  the one function `rows X Wt B`. The 64 tiles cover the array, so after the run the output array is `rows X Wt B`.
-/
import proofs.«179939_j32615981646541_1_alg».proof.Proof.Gen.KernelIdeal.Frame
import proofs.«179939_j32615981646541_1_alg».proof.Proof.Rows
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The body's accesses all start at the origin of their tile. -/
theorem origin : (![0, 0] : Fin 2 → Nat) = fun _ => 0 := funext fun a => by fin_cases a <;> rfl

/-- The three arrays the input windows stage, as the region finds them, at their literal types. -/
abbrev xArr (c : Dev nD) : FVec Ideal S8192x4096 .bf16 := V m c main_v29
abbrev wtArr (c : Dev nD) : FVec Ideal S4096x4096 .bf16 := V m c main_v27
abbrev bArr (c : Dev nD) : FVec Ideal S1x4096 .f32 := V m c main_v30

/-- The four index maps over the 64 grid points, decided: X's tile moves with the output's row block and stays at
    column block 0; Wt's and B's tiles stay at row block 0 and move with the output's column block; the output's
    block indices run over 0..7 each. -/
theorem grid_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every tile of the 8 × 8 tiling is some grid point's. -/
theorem grid_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- WHAT POINT `t` WRITES BACK is tile `t` of `rows` of the arrays the region finds. -/
theorem flushed_eq (c : Dev nD) (t : Fin cfg0.N) :
    (dats m 0 c).flushed 3 t
      = ((cfg0.win 3).blk t).view.read (Elt Ideal) (rows (xArr m c) (wtArr m c) (bArr m c)) := by
  show (cfg0.win 3).cut (grid0.coords t) ((dats m 0 c).after 3 t) = _
  rw [after0_3]
  unfold out0_3
  rw [View.canon_unit_zero origin]
  simp only [View.ld_unit_zero (S := S1024x4096) origin, View.ld_unit_zero (S := S4096x512) origin, View.ld_unit_zero (S := S1x512) origin]
  obtain ⟨e0, e1, e2, e3, e4, e5, e6, e7⟩ := grid_facts t
  funext y
  refine stored_eq_rows (xArr m c) (wtArr m c) (bArr m c) (iblk m c 0 t) (iblk m c 1 t) (iblk m c 2 t)
    (win0_3.index t (0 : Fin 2)) (win0_3.index t (1 : Fin 2)) y (((cfg0.win 3).blk t).view.emb y) ?_ ?_ ?_ ?_ ?_
  · show win0_3.index t (0 : Fin 2) * 1024 + 1 * (y 0).val = win0_3.index t (0 : Fin 2) * 1024 + (y 0).val
    omega
  · show win0_3.index t (1 : Fin 2) * 512 + 1 * (y 1).val = win0_3.index t (1 : Fin 2) * 512 + (y 1).val
    omega
  · -- X's tile read at u is X read at (1024 i + u₀, u₁)
    intro u v h0 h1
    show V m c main_v29 (((cfg0.win 0).blk t).view.emb u) = V m c main_v29 v
    refine congrArg (V m c main_v29) (funext fun a => Fin.ext ?_)
    match a with
    | ⟨0, _⟩ => show win0_0.index t (0 : Fin 2) * 1024 + 1 * (u 0).val = (v 0).val; omega
    | ⟨1, _⟩ => show win0_0.index t (1 : Fin 2) * 4096 + 1 * (u 1).val = (v 1).val; omega
  · -- Wt's tile read at u is Wt read at (u₀, 512 j + u₁)
    intro u v h0 h1
    show V m c main_v27 (((cfg0.win 1).blk t).view.emb u) = V m c main_v27 v
    refine congrArg (V m c main_v27) (funext fun a => Fin.ext ?_)
    match a with
    | ⟨0, _⟩ => show win0_1.index t (0 : Fin 2) * 4096 + 1 * (u 0).val = (v 0).val; omega
    | ⟨1, _⟩ => show win0_1.index t (1 : Fin 2) * 512 + 1 * (u 1).val = (v 1).val; omega
  · -- B's tile read at u is B read at (0, 512 j + u₁)
    intro u v h1
    show V m c main_v30 (((cfg0.win 2).blk t).view.emb u) = V m c main_v30 v
    refine congrArg (V m c main_v30) (funext fun a => Fin.ext ?_)
    match a with
    | ⟨0, _⟩ =>
      have hu : (u 0).val < 1 := (u 0).isLt
      have hv : (v 0).val < 1 := (v 0).isLt
      show win0_2.index t (0 : Fin 2) * 1 + 1 * (u 0).val = (v 0).val; omega
    | ⟨1, _⟩ => show win0_2.index t (1 : Fin 2) * 512 + 1 * (u 1).val = (v 1).val; omega

/-- An index of the output array is in point `t`'s tile iff each coordinate is in the tile's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v31).slice (win0_3.rect t)).set ↔ _
  rw [View.set_slice_whole, Rect.mem_set_unit]
  exact Iff.rfl

/-- THE TILES COVER THE ARRAY: index (r, o) lies in the tile of block row r / 1024 and block column o / 512. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := grid_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE OUTPUT ARRAY after the run is `rows` of the three arrays the region finds. -/
theorem output_eq (c : Dev nD) :
    (dats m 0 c).arrAt 3 cfg0.N = rows (xArr m c) (wtArr m c) (bArr m c) :=
  (dats m 0 c).arrAt_eq_of_cover 3 (rows (xArr m c) (wtArr m c) (bArr m c))
    (fun t _ => flushed_eq m c t) cover

end Cert.KernelIdeal.Blocks

end
-- ==== Proof.HostSide.lean ====
/-
  The host operations around the kernel region, read as terms of the argument arrays.

  Before the region @main builds the effective weight matrix W (a 4096×4096 table lookup `codebook[indices]`, plus the
  65536 scattered corrections `deltas` added at (rows, cols), plus the rank-32 product (U · s) Vᵀ), transposes it and
  narrows it to bf16; flattens the activations x from [4, 2048, 4096] to [8192, 4096] and narrows them; and views the
  bias as one row [1, 4096]. Those three arrays are what the region's input windows stage. After the region the
  [8192, 4096] output is viewed back as [4, 2048, 4096]: the program's result.

  W is kept as ONE named term `weight` of its eight arguments: the gather and the scatter inside it are never opened,
  since the reference builds the same matrix with the same operations.
-/
import proofs.«179939_j32615981646541_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The effective weight matrix W[o, i] as the host operations compute it from the codebook `x1`, the table indices
    `x2`, the corrections' rows `x3`, columns `x4` and values `x5`, and the low-rank factors U `x6`, s `x7`, Vᵀ `x8`:
    negative indices wrapped once, the table gathered, the corrections scatter-added, the rank-32 product added. -/
def weight (x1 : (⟨S256, .f32⟩ : BufTy).Contents (Elt F)) (x2 : (⟨S4096x4096, .i32⟩ : BufTy).Contents (Elt F)) (x3 x4 : (⟨S65536, .i32⟩ : BufTy).Contents (Elt F)) (x5 : (⟨S65536, .f32⟩ : BufTy).Contents (Elt F)) (x6 : (⟨S4096x32, .f32⟩ : BufTy).Contents (Elt F)) (x7 : (⟨S32, .f32⟩ : BufTy).Contents (Elt F)) (x8 : (⟨S32x4096, .f32⟩ : BufTy).Contents (Elt F)) : (⟨S4096x4096, .f32⟩ : BufTy).Contents (Elt F) :=
  addf (Host.scatterAdd scatter_S4096x4096_S65536x2_S65536_n_01_01_1 (Host.gather gather_S256_S4096x4096x1_S4096x4096_n_0_n_n_0_2_1 (x1) (broadcastInDim S4096x4096x1 ![0, 1] bcast_S4096x4096_S4096x4096x1_0_1 (select (cmpi .slt (x2) (broadcastInDim S4096x4096 ![] bcast_S_S4096x4096 (constantI S_ 32 0#32))) (addi (x2) (broadcastInDim S4096x4096 ![] bcast_S_S4096x4096 (constantI S_ 32 256#32))) (x2)))) (concatenate S65536x2 1 [⟨S65536x1, (broadcastInDim S65536x1 ![0] bcast_S65536_S65536x1_0 (select (cmpi .slt (x3) (broadcastInDim S65536 ![] bcast_S_S65536 (constantI S_ 32 0#32))) (addi (x3) (broadcastInDim S65536 ![] bcast_S_S65536 (constantI S_ 32 4096#32))) (x3)))⟩, ⟨S65536x1, (broadcastInDim S65536x1 ![0] bcast_S65536_S65536x1_0 (select (cmpi .slt (x4) (broadcastInDim S65536 ![] bcast_S_S65536 (constantI S_ 32 0#32))) (addi (x4) (broadcastInDim S65536 ![] bcast_S_S65536 (constantI S_ 32 4096#32))) (x4)))⟩] concatenates_S65536x1_S65536x1_S65536x2_d1) (x5)) (Host.dotGeneral dot_S4096x32_S32x4096_S4096x4096_1_0_0_1_n_n none (mulf (x6) (broadcastInDim S4096x32 ![0, 1] bcast_S1x32_S4096x32_0_1 (broadcastInDim S1x32 ![1] bcast_S32_S1x32_1 (x7)))) (x8))

variable (m : (ℓ : Loc nD τ sig) → Buf (Elt F) ℓ)

set_option maxHeartbeats 2000000 in
/-- At the region's entry the second window's array is Wᵀ narrowed to bf16. -/
theorem entry_weightT (c : Dev nD) : V m c main_v27 = truncf .bf16 (transpose S4096x4096 [1, 0] (weight (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) transposes_S4096x4096_S4096x4096_1_0) bitsLt_bf16_f32 := by
  show StableHlo.after hostOps0 (fun b => m (c, b)) (Proc.devRef .tc main_v27) = _
  after_results_simp <;> rfl

/-- At the region's entry the first window's array is x with its two leading axes flattened, narrowed to bf16. -/
theorem entry_rows (c : Dev nD) : V m c main_v29 = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v29) = _
  after_results_simp <;> rfl

/-- At the region's entry the third window's array is the bias viewed as one row. -/
theorem entry_bias (c : Dev nD) : V m c main_v30 = shapeCast S1x4096 (m ((c : Thread nD τ).loc main_arg9)) shapeCasts_S4096_S1x4096 := by
  show StableHlo.after hostOps0 (fun b => m (c, b)) (Proc.devRef .tc main_v30) = _
  after_results_simp <;> rfl

/-- The program's result after the region's tail: the region's output array, whatever it ends holding, viewed as
    [4, 2048, 4096]. -/
theorem result_after_tail (c : Dev nD) : Pipeline.afterTail₀ cfgs (dats m) 0 (V0 m) [hostOps1] c main_v32
    = shapeCast S4x2048x4096 ((dats m 0 c).arrAt 3 cfg0.N) shapeCasts_S8192x4096_S4x2048x4096 := by
  unfold Pipeline.afterTail₀
  show StableHlo.after hostOps1 _ (Proc.devRef .tc main_v32) = _
  after_results
  exact congrArg (fun A => shapeCast S4x2048x4096 A shapeCasts_S8192x4096_S4x2048x4096) (Pipeline.withArrays_arr spec0 launch0.win.arr_inj c _ _ 3)

end Cert.KernelIdeal.HostSide

end
-- ==== Proof.Spec.lean ====
/-
  The function both programs compute, over the extended reals: a dense layer

      linear x W b [n, s, o] = (Σ i < 4096, x[n, s, i] · W[o, i]) + b[o]

  for activations x : [4, 2048, 4096], a weight matrix W : [4096, 4096] (output feature × input feature) and a bias
  b : [4096]. How W is assembled from its compressed parts is the same on both sides and is not opened here.
-/
import Idealize.ShloMosaic.PureOps.Ideal
import Idealize.ShloMosaic.Lib.ValueIdx

noncomputable section

namespace Cert.Spec

open Idealize.ShloMosaic Idealize.ShloMosaic.ValueIdx

/-- Entry (n, s, o) of the layer's output: row (n, s) of x against row o of W, plus b[o]. -/
def linear (x : FVec Ideal (⟨3, ![4, 2048, 4096]⟩ : Shape) .f32) (W : FVec Ideal (⟨2, ![4096, 4096]⟩ : Shape) .f32)
    (b : FVec Ideal (⟨1, ![4096]⟩ : Shape) .f32) : FVec Ideal (⟨3, ![4, 2048, 4096]⟩ : Shape) .f32 :=
  fun i => (∑ k : Fin 4096, x (ix3 (i 0) (i 1) k) * W (ix2 (i 2) k)) + b (ix1 (i 2))

end Cert.Spec

end
-- ==== Proof.KernelValue.lean ====
/-
  The idealized kernel's result as a function of its arguments.

  The region's output array is `Blocks.rows` of the three staged arrays (`Blocks.output_eq`); those are x flattened to
  [8192, 4096], the transposed weight matrix, and the bias as a row (`HostSide.entry_*`), each narrowing to bf16 the
  identity on extended reals; the program's result is that array viewed as [4, 2048, 4096] (`HostSide.result_after_tail`).
  Reading the two views and the transpose at an index — row 2048 n + s of the flattened x is row (n, s) of x; entry (k, o)
  of the transpose is entry (o, k) of W; entry (0, o) of the bias row is bias[o] — gives the dense layer `Spec.linear`.
-/
import proofs.«179939_j32615981646541_1_alg».proof.Proof.Blocks
import proofs.«179939_j32615981646541_1_alg».proof.Proof.HostSide
import proofs.«179939_j32615981646541_1_alg».proof.Proof.Spec

noncomputable section

namespace Cert.KernelIdeal.KernelValue

open Cert.KernelIdeal Cert.KernelIdeal.Gen Idealize.ShloMosaic Idealize.ShloMosaic.TcCoe Idealize.SL.Sem Idealize.ShloMosaic.ValueIdx

/-- The flattened, tiled and re-viewed computation is the dense layer: for any x, W and bias. -/
theorem view_rows_eq_linear (x : FVec Ideal S4x2048x4096 .f32) (W : FVec Ideal S4096x4096 .f32) (b : FVec Ideal S4096 .f32) :
    shapeCast S4x2048x4096
        (Blocks.rows (truncf .bf16 (shapeCast S8192x4096 x shapeCasts_S4x2048x4096_S8192x4096) bitsLt_bf16_f32)
          (truncf .bf16 (transpose S4096x4096 [1, 0] W transposes_S4096x4096_S4096x4096_1_0) bitsLt_bf16_f32)
          (shapeCast S1x4096 b shapeCasts_S4096_S1x4096))
        shapeCasts_S8192x4096_S4x2048x4096
      = Cert.Spec.linear x W b := by
  funext i
  have h0 : (i 0).val < 4 := (i 0).isLt
  have h1 : (i 1).val < 2048 := (i 1).isLt
  have h2 : (i 2).val < 4096 := (i 2).isLt
  -- the result's view: [4, 2048, 4096] at (n, s, o) reads [8192, 4096] at (2048 n + s, o)
  refine (shapeCast_apply _ _ i (ix2 (⟨(i 0).val * 2048 + (i 1).val, by omega⟩ : Fin 8192) (i 2)) (by
    rw [Shape.rowMajor_val_two, Shape.rowMajor_val_three]
    show ((i 0).val * 2048 + (i 1).val) * 4096 + (i 2).val = ((i 0).val * 2048 + (i 1).val) * 4096 + (i 2).val
    rfl)).trans ?_
  -- row 2048 n + s of the flattened x is row (n, s) of x
  have hx : ∀ k : Fin 4096, shapeCast S8192x4096 x shapeCasts_S4x2048x4096_S8192x4096 (ix2 (⟨(i 0).val * 2048 + (i 1).val, by omega⟩ : Fin 8192) k)
      = x (ix3 (i 0) (i 1) k) := fun k =>
    shapeCast_apply _ _ _ _ (by
      rw [Shape.rowMajor_val_three, Shape.rowMajor_val_two]
      show ((i 0).val * 2048 + (i 1).val) * 4096 + k.val = ((i 0).val * 2048 + (i 1).val) * 4096 + k.val
      rfl)
  -- entry (k, o) of the transpose is entry (o, k) of W
  have hw : ∀ k : Fin 4096, transpose S4096x4096 [1, 0] W transposes_S4096x4096_S4096x4096_1_0 (ix2 k (i 2)) = W (ix2 (i 2) k) := fun k =>
    transpose_apply _ _ _ _ _ (fun a => match a with | ⟨0, _⟩ => rfl | ⟨1, _⟩ => rfl)
  -- entry (0, o) of the bias row is bias[o]
  have hb : shapeCast S1x4096 b shapeCasts_S4096_S1x4096 (ix2 (0 : Fin 1) (i 2)) = b (ix1 (i 2)) :=
    shapeCast_apply _ _ _ _ (by
      rw [Shape.rowMajor_val_one, Shape.rowMajor_val_two]
      show (i 2).val = 0 * 4096 + (i 2).val
      omega)
  show (∑ k : Fin 4096, shapeCast S8192x4096 x shapeCasts_S4x2048x4096_S8192x4096 (ix2 (⟨(i 0).val * 2048 + (i 1).val, by omega⟩ : Fin 8192) k)
        * transpose S4096x4096 [1, 0] W transposes_S4096x4096_S4096x4096_1_0 (ix2 k (i 2)))
      + shapeCast S1x4096 b shapeCasts_S4096_S1x4096 (ix2 (0 : Fin 1) (i 2))
    = (∑ k : Fin 4096, x (ix3 (i 0) (i 1) k) * W (ix2 (i 2) k)) + b (ix1 (i 2))
  rw [hb]
  exact congrArg (· + _) (Finset.sum_congr rfl fun k _ => by rw [hx k, hw k])

variable (m : (ℓ : Loc nD τ sig) → Buf (Elt Ideal) ℓ) (ρ : Dev nD → PrngReg)

/-- The program's result after the run, from the arguments. -/
theorem result_eq (c : Dev nD) :
    Pipeline.afterTail₀ cfgs (dats m) 0 (V0 m) [hostOps1] c main_v32
      = Cert.Spec.linear (m ((c : Thread nD τ).loc main_arg0)) (HostSide.weight (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  rw [HostSide.result_after_tail, Blocks.output_eq]
  show shapeCast S4x2048x4096 (Blocks.rows (V m c main_v29) (V m c main_v27) (V m c main_v30)) shapeCasts_S8192x4096_S4x2048x4096 = _
  rw [HostSide.entry_rows, HostSide.entry_weightT, HostSide.entry_bias]
  exact view_rows_eq_linear _ _ _

/-- THE RUN of the idealized kernel: every weakly fair execution terminates with the result at the dense layer of the
    arguments and the ten arguments unchanged. -/
theorem run : θ_run defs (onTc (τ := τ) (main (F := Ideal))) ⟨m, fun _ => 0, ρ⟩ fun r => ∀ c : Dev nD,
      r.2.mem ((c : Thread nD τ).loc main_v32)
        = Cert.Spec.linear (m ((c : Thread nD τ).loc main_arg0)) (HostSide.weight (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨
      ((h c).2 main_v32 (Pipeline.mem_restRefs_of main_v32 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.KernelValue

end
-- ==== Proof.RefSide.lean ====
/-
  The reference's result, read entry by entry at the extended reals.

  The reference contracts x : [4, 2048, 4096] with the weight matrix W : [4096, 4096] over x's last axis and W's second
  axis (`bsi,oi->bso`), and adds the bias broadcast along the two leading axes. At index (n, s, o) that is

      (Σ i < 4096, x[n, s, i] · W[o, i]) + bias[o],

  with W the reference's own stage for the assembled weight matrix, left unopened.
-/
import proofs.«179939_j32615981646541_1_alg».proof.Proof.Gen.ReferenceIdeal.Read
import proofs.«179939_j32615981646541_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result is the dense layer of x, its weight-matrix stage and the bias. -/
theorem result_eq (x0 : (⟨S4x2048x4096, .f32⟩ : BufTy).Contents (Elt Ideal)) (x1 : (⟨S256, .f32⟩ : BufTy).Contents (Elt Ideal)) (x2 : (⟨S4096x4096, .i32⟩ : BufTy).Contents (Elt Ideal)) (x3 x4 : (⟨S65536, .i32⟩ : BufTy).Contents (Elt Ideal)) (x5 : (⟨S65536, .f32⟩ : BufTy).Contents (Elt Ideal)) (x6 : (⟨S4096x32, .f32⟩ : BufTy).Contents (Elt Ideal)) (x7 : (⟨S32, .f32⟩ : BufTy).Contents (Elt Ideal)) (x8 : (⟨S32x4096, .f32⟩ : BufTy).Contents (Elt Ideal)) (x9 : (⟨S4096, .f32⟩ : BufTy).Contents (Elt Ideal)) :
    val_main_v29 (F := Ideal) x0 x1 x2 x3 x4 x5 x6 x7 x8 x9
      = Cert.Spec.linear x0 (val_main_v25 (F := Ideal) x1 x2 x3 x4 x5 x6 x7 x8) x9 := by
  funext i
  have el : ∀ k : Fin 4096, lidx_main_v26 i k = ix3 (i 0) (i 1) k := fun k =>
    funext fun a => by match a with | ⟨0, _⟩ => rfl | ⟨1, _⟩ => rfl | ⟨2, _⟩ => rfl
  have er : ∀ k : Fin 4096, ridx_main_v26 i k = ix2 (i 2) k := fun k =>
    funext fun a => by match a with | ⟨0, _⟩ => rfl | ⟨1, _⟩ => rfl
  have eb : idx_main_v27 (idx_main_v28 i) = ix1 (i 2) :=
    funext fun a => by match a with | ⟨0, _⟩ => rfl
  rw [val_main_v29_apply, val_main_v26_apply, val_main_v28_apply, val_main_v27_apply]
  simp only [el, er, eb]
  rfl

end Cert.ReferenceIdeal.RefValue

end
-- ==== Proof.lean ====
/-
  A dense layer with a compressed weight matrix: the tiled kernel against the einsum reference.

  Both programs first assemble the same weight matrix W : [4096, 4096] from its compressed parts — a codebook lookup
  `codebook[indices]`, sparse corrections scatter-added at (rows, cols), and a rank-32 product (U · s) Vᵀ — with the same
  host operations. The kernel then transposes W, flattens x : [4, 2048, 4096] to [8192, 4096], and computes x Wᵀ + bias
  on an 8 × 8 grid of 1024 × 512 output tiles, each tile one matrix product over the whole contraction axis plus the bias
  row, and views the [8192, 4096] output back as [4, 2048, 4096]. The reference contracts x with W directly
  (`bsi,oi->bso`) and adds the bias.

  Over the extended reals (narrowing to bf16 is the identity there) both results are, at index (n, s, o),

      (Σ i < 4096, x[n, s, i] · W[o, i]) + bias[o] :

  the same sum in the same order, so no law beyond 0 + s = s is used and the finiteness of the inputs is never opened.
  The kernel's side is read off its frame run (tiles → whole output → the tail's view); the reference's side off its
  run, one operation at a time; W is the same term on both sides and is never opened.
  The idealization rewrote nothing, so the kernel's relation to its idealization has nothing to state.
-/
import proofs.«179939_j32615981646541_1_alg».proof.Defs
import proofs.«179939_j32615981646541_1_alg».proof.Proof.Gen.Kernel
import proofs.«179939_j32615981646541_1_alg».proof.Proof.Gen.Kernel.Skeleton
import proofs.«179939_j32615981646541_1_alg».proof.Proof.Gen.Kernel.Launch
import proofs.«179939_j32615981646541_1_alg».proof.Proof.Gen.Kernel.Points
import proofs.«179939_j32615981646541_1_alg».proof.Proof.Gen.Kernel.Frame
import proofs.«179939_j32615981646541_1_alg».proof.Proof.Gen.KernelIdeal
import proofs.«179939_j32615981646541_1_alg».proof.Proof.Gen.KernelIdeal.Skeleton
import proofs.«179939_j32615981646541_1_alg».proof.Proof.Gen.KernelIdeal.Launch
import proofs.«179939_j32615981646541_1_alg».proof.Proof.Gen.KernelIdeal.Points
import proofs.«179939_j32615981646541_1_alg».proof.Proof.Gen.KernelIdeal.Frame
import proofs.«179939_j32615981646541_1_alg».proof.Proof.Gen.ReferenceIdeal
import proofs.«179939_j32615981646541_1_alg».proof.Proof.Gen.ReferenceIdeal.Run
import proofs.«179939_j32615981646541_1_alg».proof.Proof.Gen.ReferenceIdeal.Read
import proofs.«179939_j32615981646541_1_alg».proof.Proof.Gen.Pre_finite_inputs
import proofs.«179939_j32615981646541_1_alg».proof.Proof.KernelValue
import proofs.«179939_j32615981646541_1_alg».proof.Proof.RefSide
import Idealize.ShloMosaic.Adequacy
import Idealize.ShloMosaic.Init

noncomputable section

namespace Cert.Proof

open Idealize.ShloMosaic Idealize.SL.Sem

/-- The weight matrix is one term: the kernel's host operations and the reference's assemble W by the same operations
    on the same arguments. -/
theorem weight_eq (x1 : (⟨Cert.KernelIdeal.S256, .f32⟩ : BufTy).Contents (Elt Ideal)) (x2 : (⟨Cert.KernelIdeal.S4096x4096, .i32⟩ : BufTy).Contents (Elt Ideal)) (x3 x4 : (⟨Cert.KernelIdeal.S65536, .i32⟩ : BufTy).Contents (Elt Ideal)) (x5 : (⟨Cert.KernelIdeal.S65536, .f32⟩ : BufTy).Contents (Elt Ideal)) (x6 : (⟨Cert.KernelIdeal.S4096x32, .f32⟩ : BufTy).Contents (Elt Ideal)) (x7 : (⟨Cert.KernelIdeal.S32, .f32⟩ : BufTy).Contents (Elt Ideal)) (x8 : (⟨Cert.KernelIdeal.S32x4096, .f32⟩ : BufTy).Contents (Elt Ideal)) :
    Cert.KernelIdeal.HostSide.weight (F := Ideal) x1 x2 x3 x4 x5 x6 x7 x8
      = Cert.ReferenceIdeal.Read.val_main_v25 (F := Ideal) x1 x2 x3 x4 x5 x6 x7 x8 := rfl

/-- The kernel as printed runs to the end and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories agreeing on the arguments both programs end at the dense layer of x, the assembled W and the bias. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v29_eq, Cert.ReferenceIdeal.RefValue.result_eq, a0, a1, a2, a3, a4, a5, a6, a7, a8, a9]
  exact congrArg (fun W => Cert.Spec.linear _ W _) (weight_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
